-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  main_v13
-- ==== Kernel.lean ====
abbrev S1x16x2048x64 : Shape := ⟨4, ![1, 16, 2048, 64]⟩
abbrev S16x2048x64 : Shape := ⟨3, ![16, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S1x16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16x2048x64_S16x2048x64 : S1x16x2048x64.ShapeCasts S16x2048x64
  shapeCasts_S16x2048x64_S1x16x2048x64 : S16x2048x64.ShapeCasts S1x16x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x64 : S256x1.Broadcasts S256x64
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_call0_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x2048x64 : Shape := ⟨4, ![1, 16, 2048, 64]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.AttnSpec.lean ====
/-
  What both attention programs compute, as ONE function of the three argument arrays, index by index.

  Per batch `b`, head `h`, query row `i` and output column `d`:
    out[b,h,i,d] = (∑ j, exp (logit i j) * v[b,h,j,d]) / (∑ j, exp (logit i j)),
    logit i j    = (∑ e, q[b,h,i,e] * k[b,h,j,e]) * c,
  where `c` is the value of the 32-bit pattern 0x3E000000 (one eighth, the reciprocal of the square root of the
  head dimension 64) and `j` ranges over the 2048 keys, `e` over the 64 features. The quotient is taken once, after
  the two sums. `G` states this over the rank-4 arrays [1, 16, 2048, 64]; `G3` is the same function over the
  rank-3 arrays [16, 2048, 64] with the unit batch axis dropped.
-/
import Idealize.ShloMosaic.PureOps.Ideal
import Idealize.ShloMosaic.Lib.ValueIdx

noncomputable section

open scoped BigOperators
open Idealize.ShloMosaic Idealize.ShloMosaic.ValueIdx

namespace Cert.Attn

/-- The scale on the logits: the value of the pattern the kernel multiplies by. -/
abbrev scaleWord : EReal := Ideal.ofBits .f32 0x3E000000#32

/-- The scaled logit of query row `i` against key row `j`, in batch `b` and head `h`. -/
def logit (q k : (⟨4, ![1, 16, 2048, 64]⟩ : Shape).Idx → EReal) (b : Fin 1) (h : Fin 16) (i j : Fin 2048) : EReal :=
  (∑ e : Fin 64, q (ix4 b h i e) * k (ix4 b h j e)) * scaleWord

/-- Attention with the quotient taken once: the exponential-weighted sum of the value rows over the sum of the
    exponentials. -/
def G (q k v : (⟨4, ![1, 16, 2048, 64]⟩ : Shape).Idx → EReal) : (⟨4, ![1, 16, 2048, 64]⟩ : Shape).Idx → EReal := fun y =>
  Ideal.div (∑ j : Fin 2048, Ideal.exp (logit q k (y 0) (y 1) (y 2) j) * v (ix4 (y 0) (y 1) j (y 3)))
    (∑ j : Fin 2048, Ideal.exp (logit q k (y 0) (y 1) (y 2) j))

/-- The same logit over the arrays with the batch axis dropped. -/
def logit3 (q k : (⟨3, ![16, 2048, 64]⟩ : Shape).Idx → EReal) (h : Fin 16) (i j : Fin 2048) : EReal :=
  (∑ e : Fin 64, q (ix3 h i e) * k (ix3 h j e)) * scaleWord

/-- The same function over the arrays with the batch axis dropped. -/
def G3 (q k v : (⟨3, ![16, 2048, 64]⟩ : Shape).Idx → EReal) : (⟨3, ![16, 2048, 64]⟩ : Shape).Idx → EReal := fun y =>
  Ideal.div (∑ j : Fin 2048, Ideal.exp (logit3 q k (y 0) (y 1) j) * v (ix3 (y 0) j (y 2)))
    (∑ j : Fin 2048, Ideal.exp (logit3 q k (y 0) (y 1) j))

end Cert.Attn

end
-- ==== Proof.KernelPay.lean ====
/-
  The attention block's stored value, read at one element.
-/
import proofs.«164601_g55705725829376_cont_9to1c4b_399_3_alg».proof.Proof.Gen.KernelIdeal.Skeleton
import proofs.«164601_g55705725829376_cont_9to1c4b_399_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Attn

open Cert.KernelIdeal Cert.KernelIdeal.Gen

/-! ## The row totals, kept as a one-column matrix and spread over the columns -/

/-- A vector of 256 entries viewed as a 256 × 1 column reads, at row `p`, entry `p`. -/
theorem column_apply {α : Type} (x : S256.Idx → α) (h : S256.ShapeCasts S256x1) (p : Fin 256) (u : Fin 1) :
    shapeCast S256x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A 256 × 1 column spread over 64 columns reads, at `(p, q)`, the column's row `p`. -/
theorem spread_apply {α : Type} (x : S256x1.Idx → α) (h : S256x1.Broadcasts S256x64) (p : Fin 256) (q : Fin 64) :
    broadcastTo S256x64 x h (ix2 p q) = x (ix2 p (0 : Fin 1)) :=
  broadcastTo_apply x h (ix2 p q) (ix2 p (0 : Fin 1)) fun a => match a with
    | ⟨0, _⟩ => by show p.val = if (256 : Nat) = 1 then 0 else p.val; rw [if_neg (by decide)]
    | ⟨1, _⟩ => by show 0 = if (1 : Nat) = 1 then 0 else q.val; rw [if_pos rfl]

/-- The sum along the second axis of a 256 × 2048 matrix reads, at row `p`, the sum of that row. -/
theorem rowSum_apply (w : FVec Ideal S256x2048 .f32) (h : S256x2048.Reduces [1] S256) (hφ : FKind.Formats .f32)
    (hacc : (0x00000000#32 : BitVec 32) = FKind.add.neutral .f32 hφ) (p : Fin 256) :
    multiReduction .add [1] S256 w 0x00000000#32 h hφ hacc (ix1 p) = ∑ j : Fin 2048, w (ix2 p j) := by
  refine (Ideal.multiReduction_add_single w 0x00000000#32 h hφ hacc (ix1 p)).trans ?_
  refine Finset.sum_congr rfl fun j _ => congrArg w ?_
  funext a
  refine Fin.ext ?_
  match a with
  | ⟨0, _⟩ => rfl
  | ⟨1, _⟩ => rfl

/-! ## The product of the query block with the key rows

The dimension numbers contract axis 1 of both operands; the free axis of the left operand is result axis 0, that
of the right operand result axis 1. -/

theorem qk_lhs_0 (y : S256x2048.Idx) (q : dot_S256x64_S2048x64_S256x2048_1_1_0_0_n_n.contr.Idx) :
    (dot_S256x64_S2048x64_S256x2048_1_1_0_0_n_n.lhsIdx y q 0).val = (y 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (y : S256x2048.Idx) (q : dot_S256x64_S2048x64_S256x2048_1_1_0_0_n_n.contr.Idx) :
    (dot_S256x64_S2048x64_S256x2048_1_1_0_0_n_n.lhsIdx y q 1).val = (q ⟨0, by decide⟩).val :=
  dot_S256x64_S2048x64_S256x2048_1_1_0_0_n_n.lhsIdx_val_of_single rfl y q
theorem qk_rhs_0 (y : S256x2048.Idx) (q : dot_S256x64_S2048x64_S256x2048_1_1_0_0_n_n.contr.Idx) :
    (dot_S256x64_S2048x64_S256x2048_1_1_0_0_n_n.rhsIdx y q 0).val = (y 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (y : S256x2048.Idx) (q : dot_S256x64_S2048x64_S256x2048_1_1_0_0_n_n.contr.Idx) :
    (dot_S256x64_S2048x64_S256x2048_1_1_0_0_n_n.rhsIdx y q 1).val = (q ⟨0, by decide⟩).val :=
  dot_S256x64_S2048x64_S256x2048_1_1_0_0_n_n.rhsIdx_val_of_single rfl y q

/-- Entry `(i, j)` of the product into a zero accumulator: the inner product of row `i` of the left operand with
    row `j` of the right. -/
theorem qk_apply (a : FVec Ideal S256x64 .f32) (b : FVec Ideal S2048x64 .f32) (i : Fin 256) (j : Fin 2048) :
    matmul dot_S256x64_S2048x64_S256x2048_1_1_0_0_n_n none a b (constant (F := Ideal) S256x2048 .f32 0x00000000#32) (ix2 i j)
      = ∑ e : Fin 64, a (ix2 i e) * b (ix2 j e) := by
  refine (Ideal.matmul_constant_zero_apply dot_S256x64_S2048x64_S256x2048_1_1_0_0_n_n none a b (ix2 i j)).trans ?_
  rw [← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 i j) ((ValueIdx.contrEquiv1 dot_S256x64_S2048x64_S256x2048_1_1_0_0_n_n 64 rfl rfl).symm k) = ix2 i k := funext fun ax => Fin.ext (by
    match ax with
    | ⟨0, _⟩ => exact qk_lhs_0 _ _
    | ⟨1, _⟩ => exact (qk_lhs_1 _ _).trans hk)
  have er : dot_S256x64_S2048x64_S256x2048_1_1_0_0_n_n.rhsIdx (ix2 i j) ((ValueIdx.contrEquiv1 dot_S256x64_S2048x64_S256x2048_1_1_0_0_n_n 64 rfl rfl).symm k) = ix2 j k := funext fun ax => Fin.ext (by
    match ax with
    | ⟨0, _⟩ => exact qk_rhs_0 _ _
    | ⟨1, _⟩ => exact (qk_rhs_1 _ _).trans hk)
  rw [el, er]

/-! ## The product of the weights with the value rows

The dimension numbers contract axis 1 of the left operand with axis 0 of the right; the free axis of the left
operand is result axis 0, that of the right operand result axis 1. -/

theorem wv_lhs_0 (y : S256x64.Idx) (q : dot_S256x2048_S2048x64_S256x64_1_0_0_1_n_n.contr.Idx) :
    (dot_S256x2048_S2048x64_S256x64_1_0_0_1_n_n.lhsIdx y q 0).val = (y 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem wv_lhs_1 (y : S256x64.Idx) (q : dot_S256x2048_S2048x64_S256x64_1_0_0_1_n_n.contr.Idx) :
    (dot_S256x2048_S2048x64_S256x64_1_0_0_1_n_n.lhsIdx y q 1).val = (q ⟨0, by decide⟩).val :=
  dot_S256x2048_S2048x64_S256x64_1_0_0_1_n_n.lhsIdx_val_of_single rfl y q
theorem wv_rhs_0 (y : S256x64.Idx) (q : dot_S256x2048_S2048x64_S256x64_1_0_0_1_n_n.contr.Idx) :
    (dot_S256x2048_S2048x64_S256x64_1_0_0_1_n_n.rhsIdx y q 0).val = (q ⟨0, by decide⟩).val :=
  dot_S256x2048_S2048x64_S256x64_1_0_0_1_n_n.rhsIdx_val_of_single rfl y q
theorem wv_rhs_1 (y : S256x64.Idx) (q : dot_S256x2048_S2048x64_S256x64_1_0_0_1_n_n.contr.Idx) :
    (dot_S256x2048_S2048x64_S256x64_1_0_0_1_n_n.rhsIdx y q 1).val = (y 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Entry `(i, d)` of the product into a zero accumulator: the sum over the rows `j` of the right operand of the
    left operand's `(i, j)` times the right operand's `(j, d)`. -/
theorem wv_apply (w : FVec Ideal S256x2048 .f32) (v : FVec Ideal S2048x64 .f32) (i : Fin 256) (d : Fin 64) :
    matmul dot_S256x2048_S2048x64_S256x64_1_0_0_1_n_n none w v (constant (F := Ideal) S256x64 .f32 0x00000000#32) (ix2 i d)
      = ∑ j : Fin 2048, w (ix2 i j) * v (ix2 j d) := by
  refine (Ideal.matmul_constant_zero_apply dot_S256x2048_S2048x64_S256x64_1_0_0_1_n_n none w v (ix2 i d)).trans ?_
  rw [← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 i d) ((ValueIdx.contrEquiv1 dot_S256x2048_S2048x64_S256x64_1_0_0_1_n_n 2048 rfl rfl).symm k) = ix2 i k := funext fun ax => Fin.ext (by
    match ax with
    | ⟨0, _⟩ => exact wv_lhs_0 _ _
    | ⟨1, _⟩ => exact (wv_lhs_1 _ _).trans hk)
  have er : dot_S256x2048_S2048x64_S256x64_1_0_0_1_n_n.rhsIdx (ix2 i d) ((ValueIdx.contrEquiv1 dot_S256x2048_S2048x64_S256x64_1_0_0_1_n_n 2048 rfl rfl).symm k) = ix2 k d := funext fun ax => Fin.ext (by
    match ax with
    | ⟨0, _⟩ => exact (wv_rhs_0 _ _).trans hk
    | ⟨1, _⟩ => exact wv_rhs_1 _ _)
  rw [el, er]

/-! ## The weights -/

/-- Entry `(i, j)` of the exponentials of the scaled products: the exponential of the inner product of row `i` of the
    left operand with row `j` of the right, times the scale. -/
theorem weight_apply (a : FVec Ideal S256x64 .f32) (b : FVec Ideal S2048x64 .f32) (i : Fin 256) (j : Fin 2048) :
    exp (mulf (matmul dot_S256x64_S2048x64_S256x2048_1_1_0_0_n_n none a b (constant (F := Ideal) S256x2048 .f32 0x00000000#32))
        (broadcast S256x2048 (Scalar.ofBits (F := Ideal) .f32 0x3E000000#32))) (ix2 i j)
      = Ideal.exp ((∑ e : Fin 64, a (ix2 i e) * b (ix2 j e)) * scaleWord) :=
  congrArg (fun t : EReal => Ideal.exp (t * scaleWord)) (qk_apply a b i j)

/-- The same with the two operands the query block and the key rows, their unit batch axis dropped. -/
theorem weight_blocks (x0 : Vec Ideal S1x256x64 .f32) (x1 : Vec Ideal S1x2048x64 .f32) (h0 : S1x256x64.ShapeCasts S256x64)
    (h1 : S1x2048x64.ShapeCasts S2048x64) (i : Fin 256) (j : Fin 2048) :
    exp (mulf (matmul dot_S256x64_S2048x64_S256x2048_1_1_0_0_n_n none (shapeCast S256x64 x0 h0 : FVec Ideal S256x64 .f32) (shapeCast S2048x64 x1 h1 : FVec Ideal S2048x64 .f32)
          (constant (F := Ideal) S256x2048 .f32 0x00000000#32))
        (broadcast S256x2048 (Scalar.ofBits (F := Ideal) .f32 0x3E000000#32))) (ix2 i j)
      = Ideal.exp ((∑ e : Fin 64, x0 (ix3 (0 : Fin 1) i e) * x1 (ix3 (0 : Fin 1) j e)) * scaleWord) := by
  refine (weight_apply _ _ i j).trans ?_
  refine congrArg (fun t : EReal => Ideal.exp (t * scaleWord)) (Finset.sum_congr rfl fun e _ => ?_)
  exact congrArg₂ (fun s t : EReal => s * t) (shapeCast_1ab_ab_apply x0 h0 i e) (shapeCast_1ab_ab_apply x1 h1 j e)

/-- Row `i`, column `d` of what the body stores, from the three blocks it loads (the query block `x0`, the key rows
    `x1`, the value rows `x2`): the exponential-weighted sum of column `d` of the value rows over the sum of the
    exponentials, the logits the scaled products of query row `i` with the key rows. -/
theorem pay_apply (x0 : Vec Ideal S1x256x64 .f32) (x1 x2 : Vec Ideal S1x2048x64 .f32) (i : Fin 256) (d : Fin 64) :
    k0_pay1 (F := Ideal) x0 x1 x2 (ix3 (0 : Fin 1) i d)
      = Ideal.div
          (∑ j : Fin 2048, Ideal.exp ((∑ e : Fin 64, x0 (ix3 (0 : Fin 1) i e) * x1 (ix3 (0 : Fin 1) j e)) * scaleWord) * x2 (ix3 (0 : Fin 1) j d))
          (∑ j : Fin 2048, Ideal.exp ((∑ e : Fin 64, x0 (ix3 (0 : Fin 1) i e) * x1 (ix3 (0 : Fin 1) j e)) * scaleWord)) := by
  unfold k0_pay1
  refine (shapeCast_ab_1ab_apply _ _ (0 : Fin 1) i d).trans ?_
  refine (divf_apply _ _ (ix2 i d)).trans ?_
  refine congrArg₂ Ideal.div ?_ ?_
  · refine (wv_apply _ _ i d).trans ?_
    refine Finset.sum_congr rfl fun j _ => ?_
    exact congrArg₂ (fun s t : EReal => s * t) (weight_blocks x0 x1 _ _ i j) (shapeCast_1ab_ab_apply x2 _ j d)
  · refine (spread_apply _ _ i d).trans ?_
    refine (column_apply _ _ i (0 : Fin 1)).trans ?_
    refine (rowSum_apply _ _ _ _ i).trans ?_
    exact Finset.sum_congr rfl fun j _ => weight_blocks x0 x1 _ _ i j

end Cert.Attn

end
-- ==== Proof.Reshape.lean ====
/-
  Dropping and restoring the unit batch axis around the rank-3 function gives the rank-4 function.
-/
import proofs.«164601_g55705725829376_cont_9to1c4b_399_3_alg».proof.Proof.AttnSpec
import Idealize.ShloMosaic.Lib.Pipeline.Value
import Idealize.ShloMosaic.Lib.ValueIdx

noncomputable section

open scoped BigOperators
open Idealize.ShloMosaic Idealize.ShloMosaic.ValueIdx

namespace Cert.Attn

/-- Dropping the unit batch axis: entry (h, i, d) of the rank-3 view is entry (0, h, i, d) of the rank-4 array. Both have
    row-major position (h * 2048 + i) * 64 + d. -/
private theorem shapeCast_drop_apply (x : (⟨4, ![1, 16, 2048, 64]⟩ : Shape).Idx → EReal)
    (h1 : (⟨4, ![1, 16, 2048, 64]⟩ : Shape).ShapeCasts ⟨3, ![16, 2048, 64]⟩)
    (a : Fin 16) (b : Fin 2048) (c : Fin 64) :
    shapeCast ⟨3, ![16, 2048, 64]⟩ x h1 (ix3 a b c) = x (ix4 0 a b c) := by
  refine shapeCast_apply x h1 (ix3 a b c) (ix4 0 a b c) ?_
  rw [Shape.rowMajor_val_four, Shape.rowMajor_val_three]
  show ((0 * 16 + a.val) * 2048 + b.val) * 64 + c.val = (a.val * 2048 + b.val) * 64 + c.val
  omega

/-- Restoring the unit batch axis: entry (z, h, i, d) of the rank-4 view is entry (h, i, d) of the rank-3 array, the one
    batch coordinate z being 0. -/
private theorem shapeCast_add_apply (x : (⟨3, ![16, 2048, 64]⟩ : Shape).Idx → EReal)
    (h2 : (⟨3, ![16, 2048, 64]⟩ : Shape).ShapeCasts ⟨4, ![1, 16, 2048, 64]⟩)
    (z : Fin 1) (a : Fin 16) (b : Fin 2048) (c : Fin 64) :
    shapeCast ⟨4, ![1, 16, 2048, 64]⟩ x h2 (ix4 z a b c) = x (ix3 a b c) := by
  refine shapeCast_apply x h2 (ix4 z a b c) (ix3 a b c) ?_
  rw [Shape.rowMajor_val_four, Shape.rowMajor_val_three]
  have hz : z.val = 0 := by omega
  show (a.val * 2048 + b.val) * 64 + c.val = ((z.val * 16 + a.val) * 2048 + b.val) * 64 + c.val
  rw [hz]; omega

/-- Reshaping the three arguments [1,16,2048,64] → [16,2048,64], applying `G3`, and reshaping the result back is `G`:
    a reshape keeps the row-major position, and with a leading axis of extent one (b, h, i, d) and (h, i, d) have the
    same position. -/
theorem G3_of_reshape (q k v : (⟨4, ![1, 16, 2048, 64]⟩ : Shape).Idx → EReal)
    (h1 : (⟨4, ![1, 16, 2048, 64]⟩ : Shape).ShapeCasts ⟨3, ![16, 2048, 64]⟩)
    (h2 : (⟨3, ![16, 2048, 64]⟩ : Shape).ShapeCasts ⟨4, ![1, 16, 2048, 64]⟩) :
    shapeCast ⟨4, ![1, 16, 2048, 64]⟩
        (G3 (shapeCast ⟨3, ![16, 2048, 64]⟩ q h1) (shapeCast ⟨3, ![16, 2048, 64]⟩ k h1) (shapeCast ⟨3, ![16, 2048, 64]⟩ v h1)) h2
      = G q k v := by
  funext y
  obtain ⟨b, h, i, d, rfl⟩ : ∃ b h i d, y = ix4 b h i d := ⟨y 0, y 1, y 2, y 3, eq_ix4 y⟩
  -- the batch axis has extent one
  obtain rfl : b = 0 := Subsingleton.elim _ _
  rw [shapeCast_add_apply]
  unfold G G3 logit logit3
  simp only [shapeCast_drop_apply]

end Cert.Attn

end
-- ==== Proof.KernelValue.lean ====
/-
  The attention kernel's run, read: what its result array holds at the end.

  The launch has 128 points (head h, query block qb): point t reads the query block — rows 256·qb … 256·qb + 255 of
  head h — and ALL 2048 key rows and value rows of head h, and writes back rows 256·qb … 256·qb + 255 of head h of
  the output. Row r, column d of what it writes is the attention quotient of AttnSpec.lean's `G3` at (h, 256·qb + r, d):
  the loaded blocks are restrictions of the three arrays, and the body's arithmetic at an element depends on the
  query row, the head's key rows and column d of the head's value rows only. The 128 output blocks tile the
  [16, 2048, 64] array (head by the first block index, rows by the second: the block holding row i is i / 256), so
  the array ends as `G3` of the three input arrays. Around the launch the program only reshapes: the three arguments
  [1,16,2048,64] → [16,2048,64] before it, the result back after it; so the program's result is `G` of its arguments.
-/
import proofs.«164601_g55705725829376_cont_9to1c4b_399_3_alg».proof.Proof.Gen.KernelIdeal.Frame
import proofs.«164601_g55705725829376_cont_9to1c4b_399_3_alg».proof.Proof.KernelPay
import proofs.«164601_g55705725829376_cont_9to1c4b_399_3_alg».proof.Proof.Reshape
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Attn.Kernel

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The three blocks a point loads, and the three arrays the launch reads, at their literal types. -/
abbrev qblk (c : Dev nD) (t : Fin cfg0.N) : Vec Ideal S1x256x64 .f32 := iblk m c 0 t
abbrev kblk (c : Dev nD) (t : Fin cfg0.N) : Vec Ideal S1x2048x64 .f32 := iblk m c 1 t
abbrev vblk (c : Dev nD) (t : Fin cfg0.N) : Vec Ideal S1x2048x64 .f32 := iblk m c 2 t
abbrev qarr (c : Dev nD) : Vec Ideal S16x2048x64 .f32 := V m c main_call0_v0
abbrev karr (c : Dev nD) : Vec Ideal S16x2048x64 .f32 := V m c main_call0_v1
abbrev varr (c : Dev nD) : Vec Ideal S16x2048x64 .f32 := V m c main_call0_v2

/-! ## The block indices over the grid -/

/-- The printed index maps, decided over the 128 points: the query block moves with the output block; the key and the
    value blocks follow the output's head and stay at row block 0; the output's block indices are a head below 16
    and a row block below 8. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 7 ∧ win0_3.index t (2 : Fin 3) = 0 :=
  (by decide +kernel : ∀ t : Fin grid0.N, _)

/-- Every (head, row block) is some point's output block. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-! ## The input blocks as restrictions of the arrays -/

/-- Row `i`, feature `e` of the query block at point `t` is the query array at (the point's head, 256 · the point's row
    block + i, e). -/
theorem qblk_apply (c : Dev nD) (t : Fin cfg0.N) (i : Fin 256) (e : Fin 64) (k : S16x2048x64.Idx)
    (hk0 : (k 0).val = win0_3.index t (0 : Fin 3)) (hk1 : (k 1).val = win0_3.index t (1 : Fin 3) * 256 + i.val) (hk2 : (k 2).val = e.val) :
    qblk m c t (ix3 (0 : Fin 1) i e) = qarr m c k := by
  obtain ⟨e0, e1, e2, -⟩ := idx_facts t
  unfold qblk qarr iblk
  rw [View.read_apply]
  show (V m c main_call0_v0 : S16x2048x64.Idx → EReal) _ = (V m c main_call0_v0 : S16x2048x64.Idx → EReal) k
  congr 1
  funext a
  apply Fin.ext
  match a with
  | ⟨0, _⟩ => show win0_0.index t (0 : Fin 3) * 1 + 1 * 0 = (k 0).val; omega
  | ⟨1, _⟩ => show win0_0.index t (1 : Fin 3) * 256 + 1 * i.val = (k 1).val; omega
  | ⟨2, _⟩ => show win0_0.index t (2 : Fin 3) * 64 + 1 * e.val = (k 2).val; omega

/-- Row `j`, feature `e` of the key block at point `t` is the key array at (the point's head, j, e). -/
theorem kblk_apply (c : Dev nD) (t : Fin cfg0.N) (j : Fin 2048) (e : Fin 64) (k : S16x2048x64.Idx)
    (hk0 : (k 0).val = win0_3.index t (0 : Fin 3)) (hk1 : (k 1).val = j.val) (hk2 : (k 2).val = e.val) :
    kblk m c t (ix3 (0 : Fin 1) j e) = karr m c k := by
  obtain ⟨-, -, -, e0, e1, e2, -⟩ := idx_facts t
  unfold kblk karr iblk
  rw [View.read_apply]
  show (V m c main_call0_v1 : S16x2048x64.Idx → EReal) _ = (V m c main_call0_v1 : S16x2048x64.Idx → EReal) k
  congr 1
  funext a
  apply Fin.ext
  match a with
  | ⟨0, _⟩ => show win0_1.index t (0 : Fin 3) * 1 + 1 * 0 = (k 0).val; omega
  | ⟨1, _⟩ => show win0_1.index t (1 : Fin 3) * 2048 + 1 * j.val = (k 1).val; omega
  | ⟨2, _⟩ => show win0_1.index t (2 : Fin 3) * 64 + 1 * e.val = (k 2).val; omega

/-- Row `j`, column `d` of the value block at point `t` is the value array at (the point's head, j, d). -/
theorem vblk_apply (c : Dev nD) (t : Fin cfg0.N) (j : Fin 2048) (d : Fin 64) (k : S16x2048x64.Idx)
    (hk0 : (k 0).val = win0_3.index t (0 : Fin 3)) (hk1 : (k 1).val = j.val) (hk2 : (k 2).val = d.val) :
    vblk m c t (ix3 (0 : Fin 1) j d) = varr m c k := by
  obtain ⟨-, -, -, -, -, -, e0, e1, e2, -⟩ := idx_facts t
  unfold vblk varr iblk
  rw [View.read_apply]
  show (V m c main_call0_v2 : S16x2048x64.Idx → EReal) _ = (V m c main_call0_v2 : S16x2048x64.Idx → EReal) k
  congr 1
  funext a
  apply Fin.ext
  match a with
  | ⟨0, _⟩ => show win0_2.index t (0 : Fin 3) * 1 + 1 * 0 = (k 0).val; omega
  | ⟨1, _⟩ => show win0_2.index t (1 : Fin 3) * 2048 + 1 * j.val = (k 1).val; omega
  | ⟨2, _⟩ => show win0_2.index t (2 : Fin 3) * 64 + 1 * d.val = (k 2).val; omega

/-! ## What a point writes back -/

/-- The stored value at any element of the block, by its row and column. -/
theorem pay_at (x0 : Vec Ideal S1x256x64 .f32) (x1 x2 : Vec Ideal S1x2048x64 .f32) (y : S1x256x64.Idx) :
    k0_pay1 (F := Ideal) x0 x1 x2 y
      = Ideal.div
          (∑ j : Fin 2048, Ideal.exp ((∑ e : Fin 64, x0 (ix3 (0 : Fin 1) (y 1) e) * x1 (ix3 (0 : Fin 1) j e)) * scaleWord) * x2 (ix3 (0 : Fin 1) j (y 2)))
          (∑ j : Fin 2048, Ideal.exp ((∑ e : Fin 64, x0 (ix3 (0 : Fin 1) (y 1) e) * x1 (ix3 (0 : Fin 1) j e)) * scaleWord)) := by
  obtain ⟨a, i, d, rfl⟩ : ∃ (a : Fin 1) (i : Fin 256) (d : Fin 64), y = ix3 a i d := ⟨y 0, y 1, y 2, eq_ix3 y⟩
  obtain rfl : a = 0 := Subsingleton.elim _ _
  exact pay_apply x0 x1 x2 i d

/-- The stored value at element `y` of the block at point `t` is `G3` of the three arrays at the array index `Y` under
    it: head the point's, row 256 · the point's row block + y's row, column y's. -/
theorem block_elt (c : Dev nD) (t : Fin cfg0.N) (y : S1x256x64.Idx) (Y : S16x2048x64.Idx)
    (h0 : (Y 0).val = win0_3.index t (0 : Fin 3)) (h1 : (Y 1).val = win0_3.index t (1 : Fin 3) * 256 + (y 1).val)
    (h2 : (Y 2).val = (y 2).val) :
    k0_pay1 (F := Ideal) (qblk m c t) (kblk m c t) (vblk m c t) y = G3 (qarr m c) (karr m c) (varr m c) Y := by
  refine (pay_at (qblk m c t) (kblk m c t) (vblk m c t) y).trans ?_
  simp only [G3, logit3]
  have hqk : ∀ (j : Fin 2048) (e : Fin 64),
      qblk m c t (ix3 (0 : Fin 1) (y 1) e) * kblk m c t (ix3 (0 : Fin 1) j e)
        = qarr m c (ix3 (Y 0) (Y 1) e) * karr m c (ix3 (Y 0) j e) := fun j e =>
    congrArg₂ (· * ·) (qblk_apply m c t (y 1) e (ix3 (Y 0) (Y 1) e) h0 h1 rfl) (kblk_apply m c t j e (ix3 (Y 0) j e) h0 rfl rfl)
  have hv : ∀ j : Fin 2048, vblk m c t (ix3 (0 : Fin 1) j (y 2)) = varr m c (ix3 (Y 0) j (Y 2)) := fun j =>
    vblk_apply m c t j (y 2) (ix3 (Y 0) j (Y 2)) h0 rfl h2
  refine congrArg₂ Ideal.div (Finset.sum_congr rfl fun j _ => ?_) (Finset.sum_congr rfl fun j _ => ?_)
  · exact congrArg₂ (· * ·) (congrArg Ideal.exp (congrArg (· * scaleWord) (Finset.sum_congr rfl fun e _ => hqk j e))) (hv j)
  · exact congrArg Ideal.exp (congrArg (· * scaleWord) (Finset.sum_congr rfl fun e _ => hqk j e))

/-- WHAT POINT `t` WRITES BACK is block `t` of `G3` of the three arrays as the launch finds them. -/
theorem flushed_eq (c : Dev nD) (t : Fin cfg0.N) :
    (dats m 0 c).flushed 3 t = ((cfg0.win 3).blk t).view.read (Elt Ideal) (G3 (qarr m c) (karr m c) (varr m c)) := by
  show (cfg0.win 3).cut (grid0.coords t) ((dats m 0 c).after 3 t) = _
  rw [after0_3]
  unfold out0_3
  rw [View.canon_unit_zero hz]
  simp only [View.ld_unit_zero (S := S1x256x64) hz, View.ld_unit_zero (S := S1x2048x64) hz]
  obtain ⟨-, -, -, -, -, -, -, -, -, -, -, e32⟩ := idx_facts t
  funext y
  rw [View.read_apply]
  have hy0 : (y 0).val < 1 := (y 0).isLt
  have hY0 : ((((cfg0.win 3).blk t).view.emb y) 0).val = win0_3.index t (0 : Fin 3) * 1 + 1 * (y 0).val := rfl
  have hY1 : ((((cfg0.win 3).blk t).view.emb y) 1).val = win0_3.index t (1 : Fin 3) * 256 + 1 * (y 1).val := rfl
  have hY2 : ((((cfg0.win 3).blk t).view.emb y) 2).val = win0_3.index t (2 : Fin 3) * 64 + 1 * (y 2).val := rfl
  exact block_elt m c t y (((cfg0.win 3).blk t).view.emb y) (by omega) (by omega) (by omega)

/-! ## The blocks tile the array -/

/-- An index of the output array is in point `t`'s block iff each coordinate is in the block's range on its axis. -/
theorem mem_blk (t : Fin cfg0.N) (i : S16x2048x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_call0_v3).slice (win0_3.rect t)).set ↔ _
  rw [View.set_slice_whole, Rect.mem_set_unit]
  exact Iff.rfl

/-- Every index of the output array is in the block of the point at (its head, its row / 256). -/
theorem cover (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE OUTPUT ARRAY after the launch: `G3` of the three arrays as the launch finds them. -/
theorem final_out (c : Dev nD) : (dats m 0 c).arrAt 3 cfg0.N = G3 (qarr m c) (karr m c) (varr m c) :=
  (dats m 0 c).arrAt_eq_of_cover 3 _ (fun t _ => flushed_eq m c t) cover

/-! ## The reshapes around the launch -/

/-- The launch finds the query array as the first argument reshaped to [16, 2048, 64]. -/
theorem V_q (c : Dev nD) : qarr m c
    = shapeCast S16x2048x64 (m ((c.tc : Thread nD τ).loc main_arg0) : S1x16x2048x64.Idx → EReal) shapeCasts_S1x16x2048x64_S16x2048x64 := by
  show StableHlo.after hostOps0 (fun b => m (c, b)) (Proc.devRef .tc main_call0_v0) = _
  after_results
  rfl

/-- The key array: the second argument reshaped. -/
theorem V_k (c : Dev nD) : karr m c
    = shapeCast S16x2048x64 (m ((c.tc : Thread nD τ).loc main_arg1) : S1x16x2048x64.Idx → EReal) shapeCasts_S1x16x2048x64_S16x2048x64 := by
  show StableHlo.after hostOps0 (fun b => m (c, b)) (Proc.devRef .tc main_call0_v1) = _
  after_results
  rfl

/-- The value array: the third argument reshaped. -/
theorem V_v (c : Dev nD) : varr m c
    = shapeCast S16x2048x64 (m ((c.tc : Thread nD τ).loc main_arg2) : S1x16x2048x64.Idx → EReal) shapeCasts_S1x16x2048x64_S16x2048x64 := by
  show StableHlo.after hostOps0 (fun b => m (c, b)) (Proc.devRef .tc main_call0_v2) = _
  after_results
  rfl

/-- The program's result: the output array reshaped back to [1, 16, 2048, 64]. -/
theorem tail_out (c : Dev nD) : (Pipeline.afterTail₀ cfgs (dats m) 0 (V0 m) [hostOps1] c main_v0 : S1x16x2048x64.Idx → EReal)
    = shapeCast S1x16x2048x64 ((dats m 0 c).arrAt 3 cfg0.N : S16x2048x64.Idx → EReal) shapeCasts_S16x2048x64_S1x16x2048x64 := by
  unfold Pipeline.afterTail₀
  show StableHlo.after hostOps1 _ (Proc.devRef .tc main_v0) = _
  after_results
  exact congrArg (fun x : S16x2048x64.Idx → EReal => shapeCast S1x16x2048x64 x shapeCasts_S16x2048x64_S1x16x2048x64)
    (Pipeline.withArrays_arr spec0 launch0.win.arr_inj c _ _ 3)

/-! ## The run, read -/

/-- Every weakly fair execution terminates with the result array at `G` of the three arguments and the arguments
    unchanged. -/
theorem run : θ_run defs (onTc (τ := τ) (main (F := Ideal))) ⟨m, fun _ => 0, ρ⟩ fun r => ∀ c : Dev nD,
      r.2.mem ((c.tc : Thread nD τ).loc main_v0)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v0 (Pipeline.mem_restRefs_of main_v0 (by decide) (by decide))).trans
        ((tail_out m c).trans (by
          rw [final_out, V_q, V_k, V_v]
          exact G3_of_reshape _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.Kernel

end
-- ==== Proof.SoftmaxLaw.lean ====
/-
  One row of attention, on the reals and on the extended reals.

  For logits `s j` and values `w j` over a finite nonempty index set, softmax-weighted averaging does not
  depend on the shift subtracted before the exponential: for every real `M`,
    ∑ j, (exp (s j - M) / ∑ l, exp (s l - M)) * w j = (∑ j, exp (s j) * w j) / ∑ l, exp (s l),
  because exp (s j - M) = exp (s j) * exp (-M) and the positive factor exp (-M) cancels in each quotient;
  the left side normalizes each weight first and sums after, the right side sums first and divides once.
  The same identity is then stated on the extended reals for REAL entries (coercions), where the exponential,
  the quotient by a nonzero real and the finite sums are the real ones; and the maximum of finitely many real
  entries, folded from the bottom element, is itself a real number.
-/
import Idealize.ShloMosaic.PureOps.Ideal

open scoped BigOperators
open Idealize.ShloMosaic

namespace Cert.Attn

/-- The coercion of the reals into the extended reals commutes with finite sums. -/
theorem coe_sum {J : Type} (t : Finset J) (f : J → ℝ) :
    ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- Softmax-weighted averaging is invariant under the shift of the logits: normalizing the shifted
    exponentials and then averaging is averaging the unshifted exponentials and dividing once. -/
theorem softmax_shift {J : Type} [Fintype J] (s w : J → ℝ) (M : ℝ) :
    ∑ j, Real.exp (s j - M) / (∑ l, Real.exp (s l - M)) * w j
      = (∑ j, Real.exp (s j) * w j) / ∑ l, Real.exp (s l) := by
  have hc : Real.exp (-M) ≠ 0 := (Real.exp_pos _).ne'
  have hS : (∑ l, Real.exp (s l - M)) = (∑ l, Real.exp (s l)) * Real.exp (-M) := by
    rw [Finset.sum_mul]
    exact Finset.sum_congr rfl fun l _ => by rw [sub_eq_add_neg, Real.exp_add]
  rw [hS, Finset.sum_div]
  refine Finset.sum_congr rfl fun j _ => ?_
  rw [sub_eq_add_neg, Real.exp_add, mul_div_mul_right _ _ hc]
  ring

/-- A sum of exponentials over a nonempty index set is positive, so not zero. -/
theorem sum_exp_ne_zero {J : Type} [Fintype J] [Nonempty J] (s : J → ℝ) : (∑ l, Real.exp (s l)) ≠ 0 :=
  (Finset.sum_pos (fun l _ => Real.exp_pos (s l)) Finset.univ_nonempty).ne'

/-- The row with the shift, on the extended reals at real entries: it is the real expression, coerced. -/
theorem shifted_row_coe {J : Type} [Fintype J] [Nonempty J] (s w : J → ℝ) (M : ℝ) :
    ∑ j, Ideal.div (Ideal.exp ((s j : EReal) - (M : EReal))) (∑ l, Ideal.exp ((s l : EReal) - (M : EReal))) * (w j : EReal)
      = ((∑ j, Real.exp (s j - M) / (∑ l, Real.exp (s l - M)) * w j : ℝ) : EReal) := by
  have he : ∀ j, Ideal.exp ((s j : EReal) - (M : EReal)) = ((Real.exp (s j - M) : ℝ) : EReal) := fun j => by
    rw [← EReal.coe_sub, Ideal.exp_coe]
  have hS : (∑ l, Ideal.exp ((s l : EReal) - (M : EReal))) = ((∑ l, Real.exp (s l - M) : ℝ) : EReal) := by
    rw [coe_sum]; exact Finset.sum_congr rfl fun l _ => he l
  rw [hS]
  refine Eq.trans ?_ (coe_sum Finset.univ fun j => Real.exp (s j - M) / (∑ l, Real.exp (s l - M)) * w j).symm
  refine Finset.sum_congr rfl fun j _ => ?_
  rw [he j, Ideal.div_coe (sum_exp_ne_zero (J := J) fun l => s l - M), ← EReal.coe_mul, ← EReal.coe_mul, mul_one_div]

/-- The row without the shift, dividing once, on the extended reals at real entries. -/
theorem plain_row_coe {J : Type} [Fintype J] [Nonempty J] (s w : J → ℝ) :
    Ideal.div (∑ j, Ideal.exp (s j : EReal) * (w j : EReal)) (∑ l, Ideal.exp (s l : EReal))
      = (((∑ j, Real.exp (s j) * w j) / ∑ l, Real.exp (s l) : ℝ) : EReal) := by
  have hN : (∑ j, Ideal.exp (s j : EReal) * (w j : EReal)) = ((∑ j, Real.exp (s j) * w j : ℝ) : EReal) := by
    rw [coe_sum]; exact Finset.sum_congr rfl fun j _ => by rw [Ideal.exp_coe, EReal.coe_mul]
  have hS : (∑ l, Ideal.exp (s l : EReal)) = ((∑ l, Real.exp (s l) : ℝ) : EReal) := by
    rw [coe_sum]; exact Finset.sum_congr rfl fun l _ => by rw [Ideal.exp_coe]
  rw [hN, hS, Ideal.div_coe (sum_exp_ne_zero s), ← EReal.coe_mul, mul_one_div]

/-- On the extended reals, at real logits, real values and a real shift, the two rows are equal. -/
theorem shifted_row_eq_plain_row {J : Type} [Fintype J] [Nonempty J] (s w : J → ℝ) (M : ℝ) :
    ∑ j, Ideal.div (Ideal.exp ((s j : EReal) - (M : EReal))) (∑ l, Ideal.exp ((s l : EReal) - (M : EReal))) * (w j : EReal)
      = Ideal.div (∑ j, Ideal.exp (s j : EReal) * (w j : EReal)) (∑ l, Ideal.exp (s l : EReal)) := by
  rw [shifted_row_coe, plain_row_coe, softmax_shift]

/-- The maximum of finitely many real entries over a nonempty index set, folded from the bottom element,
    is a real number: it is below the top because every entry is, and above the bottom because one entry is. -/
theorem fold_max_real {J : Type} [Fintype J] [Nonempty J] (f : J → EReal) (hf : ∀ j, ∃ r : ℝ, f j = (r : EReal)) :
    ∃ M : ℝ, (Finset.univ : Finset J).fold max (⊥ : EReal) f = (M : EReal) := by
  refine ⟨((Finset.univ : Finset J).fold max ⊥ f).toReal, (EReal.coe_toReal ?_ ?_).symm⟩
  · apply ne_of_lt
    rw [Finset.fold_max_lt]
    exact ⟨bot_lt_top, fun j _ => by obtain ⟨r, hr⟩ := hf j; rw [hr]; exact EReal.coe_lt_top r⟩
  · apply ne_of_gt
    rw [Finset.lt_fold_max]
    obtain ⟨j⟩ := ‹Nonempty J›
    obtain ⟨r, hr⟩ := hf j
    exact Or.inr ⟨j, Finset.mem_univ j, by rw [hr]; exact EReal.bot_lt_coe r⟩

end Cert.Attn
-- ==== Proof.RefG.lean ====
/-
  The reference program's result is the attention function, at real entries.
-/
import proofs.«164601_g55705725829376_cont_9to1c4b_399_3_alg».proof.Proof.Gen.ReferenceIdeal.Read
import proofs.«164601_g55705725829376_cont_9to1c4b_399_3_alg».proof.Proof.AttnSpec
import proofs.«164601_g55705725829376_cont_9to1c4b_399_3_alg».proof.Proof.SoftmaxLaw
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Attn

open Cert.ReferenceIdeal Cert.ReferenceIdeal.Gen

/-! The reference's stages, read one by one; the names below are local to this sub-namespace. -/
namespace Reference

open Cert.ReferenceIdeal.Read

/-! ## The float words the reference spells, as extended reals -/

/-- The pattern 0x42800000 denotes the real 64, the head dimension. -/
theorem word_sixty_four : Ideal.ofBits .f32 0x42800000#32 = ((64 : ℝ) : EReal) := by
  simp [Ideal.ofBits, Ideal.ieee, -EReal.coe_mul]; norm_num

/-- The pattern 0x3F800000 denotes the real 1. -/
theorem word_one : Ideal.ofBits .f32 0x3F800000#32 = ((1 : ℝ) : EReal) := by
  simp [Ideal.ofBits, Ideal.ieee, -EReal.coe_mul]; norm_num

/-- The pattern 0x3E000000, the kernel's scale, denotes the real one eighth. -/
theorem word_one_eighth : Ideal.ofBits .f32 0x3E000000#32 = ((1 / 8 : ℝ) : EReal) := by
  simp [Ideal.ofBits, Ideal.ieee, -EReal.coe_mul]; norm_num

/-- The pattern 0xFF800000, the maximum's initial value, denotes the bottom element. -/
theorem word_neg_infinity : Ideal.ofBits .f32 0xFF800000#32 = (⊥ : EReal) := by
  simp [Ideal.ofBits, Ideal.ieee]

/-- The reference's scale, one over the square root of 64, is the value of the kernel's pattern: the square
    root of 64 = 8 ^ 2 is 8, and the quotient of 1 by the nonzero real 8 is the real one eighth. -/
theorem ref_scale_eq :
    Ideal.div (Ideal.ofBits .f32 0x3F800000#32) (Ideal.sqrt (Ideal.ofBits .f32 0x42800000#32)) = scaleWord := by
  have h8 : Real.sqrt 64 = 8 := by
    rw [show (64 : ℝ) = 8 ^ 2 by norm_num, Real.sqrt_sq (by norm_num)]
  show _ = Ideal.ofBits .f32 0x3E000000#32
  rw [word_sixty_four, word_one, word_one_eighth, Ideal.sqrt_coe, if_neg (by norm_num), h8,
    Ideal.div_coe (by norm_num : (8 : ℝ) ≠ 0), ← EReal.coe_mul, one_mul]

/-! ## Where the reference reads its operands, by coordinates -/

/-- The weight the last contraction reads for key `j` sits at row `(0, h, i)`, column `j`. -/
theorem weight_index (h : Fin 16) (i j : Fin 2048) (d : Fin 64) :
    lidx_main_v14 (ix4 (0 : Fin 1) h i d) j = ix4 (0 : Fin 1) h i j :=
  funext fun a => Fin.ext (by match a with | ⟨0, _⟩ => rfl | ⟨1, _⟩ => rfl | ⟨2, _⟩ => rfl | ⟨3, _⟩ => rfl)

/-- The value the last contraction reads for key `j` is row `j` of the values, column `d`. -/
theorem value_index (h : Fin 16) (i j : Fin 2048) (d : Fin 64) :
    ridx_main_v14 (ix4 (0 : Fin 1) h i d) j = ix4 (0 : Fin 1) h j d :=
  funext fun a => Fin.ext (by match a with | ⟨0, _⟩ => rfl | ⟨1, _⟩ => rfl | ⟨2, _⟩ => rfl | ⟨3, _⟩ => rfl)

/-- The first contraction reads feature `e` of query row `i` … -/
theorem query_index (h : Fin 16) (i j : Fin 2048) (e : Fin 64) :
    lidx_main_v2 (ix4 (0 : Fin 1) h i j) e = ix4 (0 : Fin 1) h i e :=
  funext fun a => Fin.ext (by match a with | ⟨0, _⟩ => rfl | ⟨1, _⟩ => rfl | ⟨2, _⟩ => rfl | ⟨3, _⟩ => rfl)

/-- … against feature `e` of key row `j`. -/
theorem key_index (h : Fin 16) (i j : Fin 2048) (e : Fin 64) :
    ridx_main_v2 (ix4 (0 : Fin 1) h i j) e = ix4 (0 : Fin 1) h j e :=
  funext fun a => Fin.ext (by match a with | ⟨0, _⟩ => rfl | ⟨1, _⟩ => rfl | ⟨2, _⟩ => rfl | ⟨3, _⟩ => rfl)

/-- The row maximum subtracted at `(0, h, i, j)` is the one of row `(0, h, i)`, whatever the column `j`. -/
theorem rowmax_index (h : Fin 16) (i j : Fin 2048) :
    idx_main_v6 (idx_main_v7 (ix4 (0 : Fin 1) h i j)) = ix3 (0 : Fin 1) h i :=
  funext fun a => Fin.ext (by match a with | ⟨0, _⟩ => rfl | ⟨1, _⟩ => rfl | ⟨2, _⟩ => rfl)

/-- The normalizer divided by at `(0, h, i, j)` sums row `(0, h, i)` over its columns `l`. -/
theorem normalizer_index (h : Fin 16) (i j l : Fin 2048) :
    idx_main_v10 (idx_main_v11 (idx_main_v12 (ix4 (0 : Fin 1) h i j))) l = ix4 (0 : Fin 1) h i l :=
  funext fun a => Fin.ext (by match a with | ⟨0, _⟩ => rfl | ⟨1, _⟩ => rfl | ⟨2, _⟩ => rfl | ⟨3, _⟩ => rfl)

/-! ## The reference's stages at an index -/

/-- The reference's scaled product of query row `i` and key row `j` is the logit. -/
theorem ref_logit (q k : (⟨S1x16x2048x64, .f32⟩ : BufTy).Contents (Elt Ideal)) (h : Fin 16) (i j : Fin 2048) :
    val_main_v4 (F := Ideal) q k (ix4 (0 : Fin 1) h i j) = logit q k 0 h i j := by
  rw [val_main_v4_apply, val_main_v2_apply, val_main_v3_apply, val_main_v1_apply, val_main_cst_0_apply,
    val_main_v0_apply, val_main_cst_apply]
  simp only [Ideal.mulf_def, Ideal.hostDivf_def, Ideal.hostUnary_sqrt_def, Ideal.ofBits_def, ref_scale_eq,
    query_index, key_index]
  rfl

/-- The real scaled logit of real query and key arrays. -/
def logitR (qr kr : (⟨4, ![1, 16, 2048, 64]⟩ : Shape).Idx → ℝ) (b : Fin 1) (h : Fin 16) (i j : Fin 2048) : ℝ :=
  (∑ e : Fin 64, qr (ix4 b h i e) * kr (ix4 b h j e)) * (1 / 8)

/-- At real entries the logit is a real number: a finite sum of products of reals, times the real one eighth. -/
theorem logit_coe (qr kr : (⟨4, ![1, 16, 2048, 64]⟩ : Shape).Idx → ℝ) (b : Fin 1) (h : Fin 16) (i j : Fin 2048) :
    logit (fun a => (qr a : EReal)) (fun a => (kr a : EReal)) b h i j = ((logitR qr kr b h i j : ℝ) : EReal) := by
  unfold logit logitR scaleWord
  rw [word_one_eighth, EReal.coe_mul, coe_sum]
  simp only [EReal.coe_mul]

/-- So every scaled product the reference forms at real entries is a real number. -/
theorem ref_logit_real (qr kr : (⟨4, ![1, 16, 2048, 64]⟩ : Shape).Idx → ℝ) (x : S1x16x2048x2048.Idx) :
    ∃ r : ℝ, val_main_v4 (F := Ideal) (fun a => (qr a : EReal)) (fun a => (kr a : EReal)) x = (r : EReal) := by
  obtain ⟨b, h, i, j, rfl⟩ : ∃ (b : Fin 1) (h : Fin 16) (i j : Fin 2048), x = ix4 b h i j :=
    ⟨x 0, x 1, x 2, x 3, eq_ix4 x⟩
  obtain rfl : b = 0 := Subsingleton.elim _ _
  exact ⟨_, (ref_logit _ _ h i j).trans (logit_coe qr kr 0 h i j)⟩

/-- The row maximum of real logits is a real number: the reduction over the key axis is the fold of the maximum,
    from the bottom element, over that axis's 2048 coordinates, and every entry folded is real. -/
theorem ref_rowmax_real (qr kr : (⟨4, ![1, 16, 2048, 64]⟩ : Shape).Idx → ℝ) (r : S1x16x2048.Idx) :
    ∃ M : ℝ, val_main_v5 (F := Ideal) (fun a => (qr a : EReal)) (fun a => (kr a : EReal)) r = (M : EReal) := by
  unfold val_main_v5
  rw [Host.reduce_eq_fold_single (FloatOps.maximumf (F := Ideal) (φ := .f32)) _ _
    reducesTo_S1x16x2048x2048_S1x16x2048_d3 (by decide) h_S_ r]
  rw [val_main_cst_1_apply, Ideal.ofBits_def, word_neg_infinity]
  exact fold_max_real (J := Fin 2048) _ (fun l => ref_logit_real qr kr _)

/-- The exponential the reference takes at `(0, h, i, j)`: of the logit less the row's maximum. -/
theorem ref_exp (q k : (⟨S1x16x2048x64, .f32⟩ : BufTy).Contents (Elt Ideal)) (h : Fin 16) (i j : Fin 2048) :
    val_main_v9 (F := Ideal) q k (ix4 (0 : Fin 1) h i j)
      = Ideal.exp (logit q k 0 h i j - val_main_v5 (F := Ideal) q k (ix3 (0 : Fin 1) h i)) := by
  rw [val_main_v9_apply, val_main_v8_apply, val_main_v7_apply, val_main_v6_apply, ref_logit, rowmax_index]
  rfl

/-- The normalizer the reference divides by at `(0, h, i, j)`: the row's exponentials summed from the zero word. -/
theorem ref_normalizer (q k : (⟨S1x16x2048x64, .f32⟩ : BufTy).Contents (Elt Ideal)) (h : Fin 16) (i j : Fin 2048) :
    val_main_v12 (F := Ideal) q k (ix4 (0 : Fin 1) h i j)
      = ∑ l : Fin 2048, Ideal.exp (logit q k 0 h i l - val_main_v5 (F := Ideal) q k (ix3 (0 : Fin 1) h i)) := by
  rw [val_main_v12_apply, val_main_v11_apply, val_main_v10_apply, val_main_cst_2_apply, Ideal.ofBits_def,
    Ideal.ofBits_zero_f32, zero_add]
  refine Finset.sum_congr rfl fun l _ => ?_
  rw [normalizer_index, ref_exp]

/-- The weight the reference gives key `j` in row `(0, h, i)`: the shifted exponential over the row's normalizer. -/
theorem ref_weight (q k : (⟨S1x16x2048x64, .f32⟩ : BufTy).Contents (Elt Ideal)) (h : Fin 16) (i j : Fin 2048) :
    val_main_v13 (F := Ideal) q k (ix4 (0 : Fin 1) h i j)
      = Ideal.div (Ideal.exp (logit q k 0 h i j - val_main_v5 (F := Ideal) q k (ix3 (0 : Fin 1) h i)))
          (∑ l : Fin 2048, Ideal.exp (logit q k 0 h i l - val_main_v5 (F := Ideal) q k (ix3 (0 : Fin 1) h i))) := by
  rw [val_main_v13_apply, ref_exp, ref_normalizer]
  rfl

end Reference

open Reference Cert.ReferenceIdeal.Read in
/-- At real entries the reference's last stage — softmax of the scaled logits, the row maximum subtracted before the
    exponential, each weight normalized before the weighted sum — is `G`: the reference's scale, one over the square
    root of 64, is the value of the kernel's pattern (one eighth); the row maximum of real logits is real; and the
    shift cancels between each weight's numerator and the row's normalizer. -/
theorem ref_eq_G (q k v : (⟨S1x16x2048x64, .f32⟩ : BufTy).Contents (Elt Ideal))
    (hq : ∀ i, ∃ r : ℝ, q i = (r : EReal)) (hk : ∀ i, ∃ r : ℝ, k i = (r : EReal)) (hv : ∀ i, ∃ r : ℝ, v i = (r : EReal)) :
    Cert.ReferenceIdeal.Read.val_main_v14 (F := Ideal) q k v = G q k v := by
  choose qr hqr using hq
  choose kr hkr using hk
  choose vr hvr using hv
  obtain rfl : q = fun a => (qr a : EReal) := funext hqr
  obtain rfl : k = fun a => (kr a : EReal) := funext hkr
  obtain rfl : v = fun a => (vr a : EReal) := funext hvr
  funext y
  obtain ⟨b, h, i, d, rfl⟩ : ∃ (b : Fin 1) (h : Fin 16) (i : Fin 2048) (d : Fin 64), y = ix4 b h i d :=
    ⟨y 0, y 1, y 2, y 3, eq_ix4 y⟩
  obtain rfl : b = 0 := Subsingleton.elim _ _
  obtain ⟨M, hM⟩ := ref_rowmax_real qr kr (ix3 (0 : Fin 1) h i)
  rw [val_main_v14_apply]
  show _ = Ideal.div (∑ j : Fin 2048, Ideal.exp (logit _ _ 0 h i j) * (vr (ix4 (0 : Fin 1) h j d) : EReal))
    (∑ j : Fin 2048, Ideal.exp (logit _ _ 0 h i j))
  simp only [weight_index, value_index, ref_weight, hM, logit_coe]
  exact shifted_row_eq_plain_row (J := Fin 2048) (fun j => logitR qr kr 0 h i j) (fun j => vr (ix4 (0 : Fin 1) h j d)) M

end Cert.Attn

end
-- ==== Proof.Finite.lean ====
/-
  From the precondition to real entries.
-/
import proofs.«164601_g55705725829376_cont_9to1c4b_399_3_alg».proof.Proof.Gen.Pre_finite_inputs
import Idealize.ShloMosaic.PureOps.Ideal
import Idealize.ShloMosaic.Lib.ValueIdx
import Idealize.ShloMosaic.Lib.ReduceAll

noncomputable section

open Idealize.ShloMosaic Idealize.ShloMosaic.ValueIdx

namespace Cert.Attn

/-- The pattern 0x7F800000 (exponent all ones, significand zero, sign clear) denotes +∞. -/
private theorem ofBits_inf : (FloatOps.ofBits .f32 0x7F800000#32 : Ideal .f32) = (⊤ : EReal) := by
  show Ideal.ofBits .f32 0x7F800000#32 = ⊤
  simp [Ideal.ofBits, Ideal.ieee]

/-- An extended real whose absolute value max x (-x) is strictly below +∞ is a real: at either infinity the
    maximum of x and -x is +∞ itself, which is not below +∞. -/
private theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One argument's part of the precondition: if the conjunction over all four axes of |a| < +∞ is true, every entry of
    a is a real. The conjunction being true makes each compared entry true; the compared entry at i is
    max (a i) (-(a i)) < +∞, the broadcast constant reading the same value +∞ at every index. -/
private theorem real_of_all (a : FVec Ideal Cert.Pre_finite_inputs.S1x16x2048x64 .f32)
    (hb : Cert.Pre_finite_inputs.S_.BroadcastsInDim Cert.Pre_finite_inputs.S1x16x2048x64
      (![] : Fin 0 → Fin Cert.Pre_finite_inputs.S1x16x2048x64.rank))
    (hr : Cert.Pre_finite_inputs.S1x16x2048x64.ReducesTo [0, 1, 2, 3] Cert.Pre_finite_inputs.S_)
    (hu : 0 < Cert.Pre_finite_inputs.S_.numel)
    (hall : Host.reduce IntOp.andi
        (cmpf .olt (Host.absf a)
          (broadcastInDim Cert.Pre_finite_inputs.S1x16x2048x64 ![] hb
            (constant Cert.Pre_finite_inputs.S_ .f32 0x7F800000#32)))
        (constantI Cert.Pre_finite_inputs.S_ 1 1#1) hr hu ix0 = 1#1) :
    ∀ i, ∃ r : ℝ, a i = (r : EReal) := by
  intro i
  -- the scalar shape has exactly one index
  haveI : Subsingleton Cert.Pre_finite_inputs.S_.Idx := ⟨fun a b => funext fun d => d.elim0⟩
  have hi := Host.reduce_andi_all _ _ hr hu ix0 hall i
  change Ideal.cmp .olt (max (a i) (-(a i))) (FloatOps.ofBits .f32 0x7F800000#32 : Ideal .f32) = 1#1 at hi
  rw [ofBits_inf] at hi
  exact real_of_abs_lt_top _ hi

/-- Where the precondition holds — each argument's absolute values all below +∞ — every entry of each argument is a
    real number: neither infinity has its absolute value below +∞. -/
theorem real_of_pre (a0 a1 a2 : FVec Ideal Cert.Pre_finite_inputs.S1x16x2048x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  -- the result has one index; read the precondition there
  have h0 := congrFun h ValueIdx.ix0
  dsimp only [Cert.Pre_finite_inputs.fn] at h0
  -- a conjunction of one-bit words is 1 exactly when both are
  obtain ⟨h01, h2⟩ := IntOp.andi_eq_one.1 h0
  obtain ⟨h0', h1⟩ := IntOp.andi_eq_one.1 h01
  exact ⟨real_of_all a0 _ _ _ h0', real_of_all a1 _ _ _ h1, real_of_all a2 _ _ _ h2⟩

end Cert.Attn

end
-- ==== Proof.lean ====
/-
  Dense scaled-dot-product attention over f32[1, 16, 2048, 64], two ways, equal on the extended reals at finite inputs.

  The kernel sweeps (head, block of 256 query rows): it forms the block's logits against all 2048 keys of the head,
  q·kᵀ times one eighth, exponentiates them WITHOUT subtracting the row maximum, multiplies by the head's values, and
  divides the (256, 64) product once by the row sums of the exponentials. The reference scales by
  1 / sqrt 64, subtracts each row's maximum, exponentiates, normalizes every weight by its row's sum, and only then
  multiplies by the values. With exact arithmetic the shift by the maximum M multiplies every exponential of a row by
  exp (-M), which cancels between a weight's numerator and its row's normalizer, and dividing each weight first or
  the weighted sum once is the same by distributivity — at REAL entries: on the extended reals neither step holds at
  an infinity, so the precondition (every input entry finite) is used, to make every logit, every row maximum and
  every row sum a real number, the row sum a positive one. One eighth is exactly 1 / sqrt 64.

  The pieces: Proof/AttnSpec.lean states the common function `G`; Proof/SoftmaxLaw.lean the law on one row;
  Proof/KernelValue.lean reads the kernel's run (each grid point writes a block of `G`, the blocks tile the output,
  the reshapes around the launch only drop and restore the unit batch axis) over Proof/KernelPay.lean (the body's
  stored value at an element) and Proof/Reshape.lean; Proof/RefG.lean reads the reference's operations at an index and
  applies the law; Proof/Finite.lean takes real entries out of the precondition. The three frames are the programs'
  runs with the results dropped; nothing was rewritten between the kernel and its idealization.
-/
import proofs.«164601_g55705725829376_cont_9to1c4b_399_3_alg».proof.Defs
import proofs.«164601_g55705725829376_cont_9to1c4b_399_3_alg».proof.Proof.Gen.Kernel
import proofs.«164601_g55705725829376_cont_9to1c4b_399_3_alg».proof.Proof.Gen.Kernel.Skeleton
import proofs.«164601_g55705725829376_cont_9to1c4b_399_3_alg».proof.Proof.Gen.Kernel.Launch
import proofs.«164601_g55705725829376_cont_9to1c4b_399_3_alg».proof.Proof.Gen.Kernel.Points
import proofs.«164601_g55705725829376_cont_9to1c4b_399_3_alg».proof.Proof.Gen.Kernel.Frame
import proofs.«164601_g55705725829376_cont_9to1c4b_399_3_alg».proof.Proof.Gen.KernelIdeal
import proofs.«164601_g55705725829376_cont_9to1c4b_399_3_alg».proof.Proof.Gen.KernelIdeal.Skeleton
import proofs.«164601_g55705725829376_cont_9to1c4b_399_3_alg».proof.Proof.Gen.KernelIdeal.Launch
import proofs.«164601_g55705725829376_cont_9to1c4b_399_3_alg».proof.Proof.Gen.KernelIdeal.Points
import proofs.«164601_g55705725829376_cont_9to1c4b_399_3_alg».proof.Proof.Gen.KernelIdeal.Frame
import proofs.«164601_g55705725829376_cont_9to1c4b_399_3_alg».proof.Proof.Gen.ReferenceIdeal
import proofs.«164601_g55705725829376_cont_9to1c4b_399_3_alg».proof.Proof.Gen.Pre_finite_inputs
import proofs.«164601_g55705725829376_cont_9to1c4b_399_3_alg».proof.Proof.Gen.ReferenceIdeal.Run
import proofs.«164601_g55705725829376_cont_9to1c4b_399_3_alg».proof.Proof.Gen.ReferenceIdeal.Read
import Idealize.ShloMosaic.Adequacy
import Idealize.ShloMosaic.Init
import proofs.«164601_g55705725829376_cont_9to1c4b_399_3_alg».proof.Proof.KernelValue
import proofs.«164601_g55705725829376_cont_9to1c4b_399_3_alg».proof.Proof.RefG
import proofs.«164601_g55705725829376_cont_9to1c4b_399_3_alg».proof.Proof.Finite

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the three arguments, finite by the precondition, the kernel's result array ends at
    `G` of the arguments (its run, read) and so does the reference's (its stages read at an index, the shift law on each
    row). -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨hq, hk, hv⟩ := Cert.Attn.real_of_pre _ _ _ (hpre c)
  exact Cert.Attn.ref_eq_G _ _ _ hq hk hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
